-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S8x768 : Shape := ⟨2, ![8, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S32768x768 .f32) (main_arg1 : FVec F S8x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S32768x768 : Shape := ⟨2, ![32768, 768]⟩
abbrev S8x768 : Shape := ⟨2, ![8, 768]⟩
abbrev S32768x8 : Shape := ⟨2, ![32768, 8]⟩
abbrev S4096x768 : Shape := ⟨2, ![4096, 768]⟩
abbrev S4096x8 : Shape := ⟨2, ![4096, 8]⟩

abbrev nBuf : Space → Nat
  | .hbm => 3
  | .vmem => 5
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S32768x8, .f32⟩
  | .local _ .vmem, ⟨0, _⟩ => ⟨S4096x768, .f32⟩
  | .local _ .vmem, ⟨1, _⟩ => ⟨S4096x768, .f32⟩
  | .local _ .vmem, ⟨2, _⟩ => ⟨S8x768, .f32⟩
  | .local _ .vmem, ⟨3, _⟩ => ⟨S4096x8, .f32⟩
  | .local _ .vmem, ⟨4, _⟩ => ⟨S4096x8, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  inb_S8x768_S8x768_0_0 : ∀ a, (![0, 0] : Fin 2 → Nat) a + S8x768.size a ≤ S8x768.size a
  h_S8x768 : 0 < S8x768.numel
  inb_S4096x8_S4096x8_0_0 : ∀ a, (![0, 0] : Fin 2 → Nat) a + S4096x8.size a ≤ S4096x8.size a
  h_S4096x8 : 0 < S4096x8.numel
  dot_S4096x768_S8x768_S4096x8_1_1_0_0_n_n_wf : DotDims.WF S4096x768 S8x768 S4096x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S8x768.size a
  hwx0_1 : ∀ i : grid0.Coords, EltTy.bits .f32 = 32 ∨ (Rect.block (s := S8x768) S8x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S32768x8.size a
  hwx0_2 : ∀ i : grid0.Coords, EltTy.bits .f32 = 32 ∨ (Rect.block (s := S32768x8) S4096x8.size (cc0_transform_2 i) (hinb0_2 i)).WholeWords (EltTy.packing .f32)

variable [Facts₀]

def dot_S4096x768_S8x768_S4096x8_1_1_0_0_n_n : DotDims S4096x768 S8x768 S4096x8 where
  lhsContracting := [1]
  rhsContracting := [1]
  lhsNonContracting := [0]
  rhsNonContracting := [0]
  lhsBatch := []
  rhsBatch := []
  wf := dot_S4096x768_S8x768_S4096x8_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x768 : Shape := ⟨2, ![32768, 768]⟩
abbrev S8x768 : Shape := ⟨2, ![8, 768]⟩
abbrev S768x8 : Shape := ⟨2, ![768, 8]⟩
abbrev S32768x8 : Shape := ⟨2, ![32768, 8]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S768x8, .f32⟩
  | .hbm, ⟨3, _⟩ => ⟨S32768x8, .f32⟩
  | .hbm, ⟨4, _⟩ => ⟨S_, .f32⟩
  | .hbm, ⟨5, _⟩ => ⟨S32768x8, .f32⟩
  | .hbm, ⟨6, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S8x768_S768x8_1_0 : S8x768.Transposes [1, 0] S768x8
  bcast_S_S32768x8 : S_.BroadcastsInDim S32768x8 (![] : Fin 0 → Fin S32768x8.rank)
  dot_S32768x768_S768x8_S32768x8_1_0_0_1_n_n_wf : DotDims.WF S32768x768 S768x8 S32768x8 [1] [0] [0] [1] [] []

variable [Facts₀]

def dot_S32768x768_S768x8_S32768x8_1_0_0_1_n_n : DotDims S32768x768 S768x8 S32768x8 where
  lhsContracting := [1]
  rhsContracting := [0]
  lhsNonContracting := [0]
  rhsNonContracting := [1]
  lhsBatch := []
  rhsBatch := []
  wf := dot_S32768x768_S768x8_S32768x8_1_0_0_1_n_n_wf

class Facts : Prop extends Facts₀ where

variable [Facts]
-- ==== Proof.Logits.lean ====
/-
  The router logits as ONE function of the two argument arrays, index by index, on the extended reals:

      logits x W (r, e) = Σ_{k < 768} x(r, k) · W(e, k)      (r < 32768 tokens, e < 8 experts).

  Both programs compute exactly this sum of products (the same factors, contracted over the feature
  axis), so no law of the extended reals beyond "the same sum" is needed: no distributivity, no
  cancellation, hence no use of finiteness of the inputs. The reference then divides by the float
  1.0, whose word 0x3F800000 denotes the real number 1; dividing an extended real by the real 1 is
  multiplying by 1, the identity on every extended real, the infinities included.
-/
import Idealize.ShloMosaic.PureOps.Ideal
import Idealize.ShloMosaic.Lib.ValueIdx

noncomputable section

open scoped BigOperators

namespace Cert.Router

open Idealize.ShloMosaic Idealize.ShloMosaic.ValueIdx

/-- tokens × features, experts × features, tokens × experts. -/
abbrev Tokens : Shape := ⟨2, ![32768, 768]⟩
abbrev Weights : Shape := ⟨2, ![8, 768]⟩
abbrev Scores : Shape := ⟨2, ![32768, 8]⟩

/-- Entry (r, e) of the logits: row r of x against row e of W, summed over the 768 features. -/
def logits (x : Tokens.Idx → EReal) (W : Weights.Idx → EReal) : Scores.Idx → EReal :=
  fun i => ∑ k : Fin 768, x (ix2 (i 0) k) * W (ix2 (i 1) k)

theorem logits_apply (x : Tokens.Idx → EReal) (W : Weights.Idx → EReal) (r : Fin 32768) (e : Fin 8) :
    logits x W (ix2 r e) = ∑ k : Fin 768, x (ix2 r k) * W (ix2 e k) := rfl

/-- The float word of 1.0 is the real number 1. -/
theorem word_one : Ideal.ofBits .f32 0x3F800000#32 = (1 : EReal) := by
  simp [Ideal.ofBits, Ideal.ieee, -EReal.coe_mul]; norm_num

/-- Dividing by the float 1.0 changes no extended real: x / 1 = x · (1/1) = x · 1 = x. -/
theorem div_word_one (x : EReal) : Ideal.div x (Ideal.ofBits .f32 0x3F800000#32) = x := by
  rw [word_one, show (1 : EReal) = ((1 : ℝ) : EReal) from rfl, Ideal.div_coe one_ne_zero]
  simp

end Cert.Router

end
-- ==== Proof.RefLogits.lean ====
/-
  The reference's result is the logits. Its five host operations, read one at a time at an index
  (r, e): the transpose of W read at (k, e) is W(e, k); the product of x with that transpose,
  contracting x's feature axis against the transpose's leading axis, is Σ_k x(r, k) · Wᵀ(k, e)
  = Σ_k x(r, k) · W(e, k); the constant 1.0 broadcast to the result's shape is 1 at every index;
  and the quotient by it is the same extended real (Cert.Router.div_word_one).
-/
import proofs.«178274_g86380382257743_cont_sun_m_742_17_alg».proof.Proof.Gen.ReferenceIdeal.Read
import proofs.«178274_g86380382257743_cont_sun_m_742_17_alg».proof.Proof.Logits

noncomputable section

open scoped BigOperators

namespace Cert.ReferenceIdeal.RefValue

open Cert.ReferenceIdeal Cert.ReferenceIdeal.Read Idealize.ShloMosaic Idealize.ShloMosaic.ValueIdx

/-- The left factor's index in the reference's product is (r, k). -/
theorem left_index (i : S32768x8.Idx) (k : Fin 768) : lidx_main_v1 i k = ix2 (i 0) k :=
  funext fun a => Fin.ext (by match a with | ⟨0, _⟩ => rfl | ⟨1, _⟩ => rfl)

/-- The right factor's index, carried back through the transpose, is (e, k). -/
theorem right_index (i : S32768x8.Idx) (k : Fin 768) : idx_main_v0 (ridx_main_v1 i k) = ix2 (i 1) k :=
  funext fun a => Fin.ext (by match a with | ⟨0, _⟩ => rfl | ⟨1, _⟩ => rfl)

/-- The reference's last stage, as a function of the two arguments, is the logits. -/
theorem stage_eq_logits (x : (⟨S32768x768, .f32⟩ : BufTy).Contents (Elt Ideal)) (W : (⟨S8x768, .f32⟩ : BufTy).Contents (Elt Ideal)) :
    val_main_v3 (F := Ideal) x W = Cert.Router.logits x W := by
  funext i
  rw [val_main_v3_apply, val_main_v1_apply, val_main_v2_apply, val_main_cst_apply]
  simp only [val_main_v0_apply, left_index, right_index]
  exact Cert.Router.div_word_one _

end Cert.ReferenceIdeal.RefValue

end
-- ==== Proof.BlockProduct.lean ====
/-
  One grid point's arithmetic. The body loads a 4096 × 768 block of x and all of W, narrows both to
  bf16 (at the ideal instance a change of float format is the identity), and multiplies them on the
  matrix unit into a zero accumulator, contracting the feature axis of BOTH operands. Read at entry
  (p, q) of the 4096 × 8 result, the product is 0 + Σ_k xblock(p, k) · W(q, k): the left operand's
  index at contraction position k is (p, k) — its row from the output's row, its column the
  contraction coordinate — and the right operand's is (q, k) — its row from the output's column.
-/
import proofs.«178274_g86380382257743_cont_sun_m_742_17_alg».proof.Proof.Gen.KernelIdeal.Skeleton
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's row is the output's row. -/
theorem lhs_row (i : S4096x8.Idx) (q : dot_S4096x768_S8x768_S4096x8_1_1_0_0_n_n.contr.Idx) :
    (dot_S4096x768_S8x768_S4096x8_1_1_0_0_n_n.lhsIdx i q 0).val = (i 0).val := by
  unfold DotDims.lhsIdx
  rw [dif_neg (show ¬(0 : Fin S4096x768.rank) ∈ dot_S4096x768_S8x768_S4096x8_1_1_0_0_n_n.lhsBatch by decide), dif_pos (show (0 : Fin S4096x768.rank) ∈ dot_S4096x768_S8x768_S4096x8_1_1_0_0_n_n.lhsNonContracting by decide)]
  rfl
/-- The left operand's column is the contraction coordinate. -/
theorem lhs_col (i : S4096x8.Idx) (q : dot_S4096x768_S8x768_S4096x8_1_1_0_0_n_n.contr.Idx) :
    (dot_S4096x768_S8x768_S4096x8_1_1_0_0_n_n.lhsIdx i q 1).val = (q ⟨0, by decide⟩).val :=
  dot_S4096x768_S8x768_S4096x8_1_1_0_0_n_n.lhsIdx_val_of_single rfl i q
/-- The right operand's row is the output's column. -/
theorem rhs_row (i : S4096x8.Idx) (q : dot_S4096x768_S8x768_S4096x8_1_1_0_0_n_n.contr.Idx) :
    (dot_S4096x768_S8x768_S4096x8_1_1_0_0_n_n.rhsIdx i q 0).val = (i 1).val := by
  unfold DotDims.rhsIdx
  rw [dif_neg (show ¬(0 : Fin S8x768.rank) ∈ dot_S4096x768_S8x768_S4096x8_1_1_0_0_n_n.rhsBatch by decide), dif_pos (show (0 : Fin S8x768.rank) ∈ dot_S4096x768_S8x768_S4096x8_1_1_0_0_n_n.rhsNonContracting by decide)]
  rfl
/-- The right operand's column is the contraction coordinate too: both feature axes are contracted. -/
theorem rhs_col (i : S4096x8.Idx) (q : dot_S4096x768_S8x768_S4096x8_1_1_0_0_n_n.contr.Idx) :
    (dot_S4096x768_S8x768_S4096x8_1_1_0_0_n_n.rhsIdx i q 1).val = (q ⟨0, by decide⟩).val :=
  dot_S4096x768_S8x768_S4096x8_1_1_0_0_n_n.rhsIdx_val_of_single rfl i q

/-- Entry (p, q) of the block's product: row p of the x block against row q of W. -/
theorem product_apply (xb : Vec Ideal S4096x768 .f32) (w : Vec Ideal S8x768 .f32) (p : Fin 4096) (q : Fin 8) :
    k0_pay1 (F := Ideal) xb w (ix2 p q) = ∑ k : Fin 768, xb (ix2 p k) * w (ix2 q k) := by
  unfold k0_pay1
  refine (Ideal.matmul_constant_zero_apply dot_S4096x768_S8x768_S4096x8_1_1_0_0_n_n none _ _ (ix2 p q)).trans ?_
  rw [← Equiv.sum_comp (contrEquiv1 dot_S4096x768_S8x768_S4096x8_1_1_0_0_n_n 768 rfl rfl).symm]
  refine Finset.sum_congr rfl fun k _ => ?_
  have hk := contrEquiv1_symm_val dot_S4096x768_S8x768_S4096x8_1_1_0_0_n_n 768 rfl rfl k
  have el : dot_S4096x768_S8x768_S4096x8_1_1_0_0_n_n.lhsIdx (ix2 p q) ((contrEquiv1 dot_S4096x768_S8x768_S4096x8_1_1_0_0_n_n 768 rfl rfl).symm k) = ix2 p k := funext fun a => Fin.ext (by
    match a with
    | ⟨0, _⟩ => exact lhs_row _ _
    | ⟨1, _⟩ => exact (lhs_col _ _).trans hk)
  have er : dot_S4096x768_S8x768_S4096x8_1_1_0_0_n_n.rhsIdx (ix2 p q) ((contrEquiv1 dot_S4096x768_S8x768_S4096x8_1_1_0_0_n_n 768 rfl rfl).symm k) = ix2 q k := funext fun a => Fin.ext (by
    match a with
    | ⟨0, _⟩ => exact rhs_row _ _
    | ⟨1, _⟩ => exact (rhs_col _ _).trans hk)
  rw [el, er]
  rfl

end Cert.KernelIdeal.BlockProduct

end
-- ==== Proof.WholeArray.lean ====
/-
  From the eight grid points' blocks to the whole result array. Point t stages rows
  4096·t … 4096·t + 4095 of x (all 768 columns) and all of W, and writes back rows
  4096·t … 4096·t + 4095 of the 32768 × 8 result. Entry (p, q) of what it writes is the block
  product Σ_k xblock(p, k) · W(q, k) with xblock(p, k) = x(4096·t + p, k): the logits at row
  4096·t + p, column q — so every point writes back its own block of ONE whole-array function, the
  logits of the two arguments. The eight blocks tile the array (row r lies in the block of point
  r / 4096), so after the run the array IS the logits.
-/
import proofs.«178274_g86380382257743_cont_sun_m_742_17_alg».proof.Proof.Gen.KernelIdeal.Value
import proofs.«178274_g86380382257743_cont_sun_m_742_17_alg».proof.Proof.BlockProduct
import proofs.«178274_g86380382257743_cont_sun_m_742_17_alg».proof.Proof.Logits

noncomputable section

open scoped BigOperators

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The three index maps over the grid: x's block follows the result's down the rows and sits at column
    block 0; W's one block is at (0, 0); the result's block at point t is row block t, column block 0. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product whose left block holds rows of X at the output's row, and whose right block holds W
    at the output's column, is the logits of X and W at that output index. -/
theorem product_eq_logits (X : Cert.Router.Tokens.Idx → EReal) (W : Cert.Router.Weights.Idx → EReal)
    (xb : Vec Ideal S4096x768 .f32) (w : Vec Ideal S8x768 .f32) (i : Cert.Router.Scores.Idx) (p : Fin 4096) (q : Fin 8)
    (hx : ∀ k : Fin 768, xb (ix2 p k) = X (ix2 (i 0) k)) (hw : ∀ k : Fin 768, w (ix2 q k) = W (ix2 (i 1) k)) :
    k0_pay1 (F := Ideal) xb w (ix2 p q) = Cert.Router.logits X W i :=
  (BlockProduct.product_apply xb w p q).trans (Finset.sum_congr rfl fun k _ => by rw [hx k, hw k])

/-- What point t writes back is block t of the logits of the argument arrays. -/
theorem flushed_eq (c : Dev nD) (t : Fin cfg0.N) :
    (dats m 0 c).flushed 2 t = ((cfg0.win 2).blk t).view.read (Elt Ideal)
      (Cert.Router.logits (V m c main_arg0) (V m c main_arg1)) := by
  rw [Value.flushed2]
  unfold out0_2
  rw [View.canon_unit_zero origin]
  simp only [View.ld_unit_zero (S := S4096x768) origin, View.ld_unit_zero (S := S8x768) origin]
  obtain ⟨e0, e1, e2, e3, e4, e5⟩ := block_indices t
  funext j
  show k0_pay1 (F := Ideal) (iblk m c 0 t) (iblk m c 1 t) j
    = Cert.Router.logits (V m c main_arg0) (V m c main_arg1) (((cfg0.win 2).blk t).view.emb j)
  obtain ⟨p, q, rfl⟩ : ∃ (p : Fin 4096) (q : Fin 8), j = ix2 p q := ⟨j 0, j 1, eq_ix2 j⟩
  refine product_eq_logits (V m c main_arg0) (V m c main_arg1) (iblk m c 0 t) (iblk m c 1 t) _ p q (fun k => ?_) (fun k => ?_)
  · show V m c main_arg0 (((cfg0.win 0).blk t).view.emb (ix2 p k)) = V m c main_arg0 _
    refine congrArg (V m c main_arg0) (funext fun a => Fin.ext ?_)
    match a with
    | ⟨0, _⟩ => show win0_0.index t (0 : Fin 2) * 4096 + 1 * p.val = win0_2.index t (0 : Fin 2) * 4096 + 1 * p.val; omega
    | ⟨1, _⟩ => show win0_0.index t (1 : Fin 2) * 768 + 1 * k.val = k.val; omega
  · show V m c main_arg1 (((cfg0.win 1).blk t).view.emb (ix2 q k)) = V m c main_arg1 _
    refine congrArg (V m c main_arg1) (funext fun a => Fin.ext ?_)
    match a with
    | ⟨0, _⟩ => show win0_1.index t (0 : Fin 2) * 8 + 1 * q.val = win0_2.index t (1 : Fin 2) * 8 + 1 * q.val; omega
    | ⟨1, _⟩ => show win0_1.index t (1 : Fin 2) * 768 + 1 * k.val = k.val; omega

/-- An index of the result array lies in point t's block iff each coordinate lies in the block's range. -/
theorem mem_block (t : Fin cfg0.N) (i : S32768x8.Idx) :
    i ∈ ((cfg0.win 2).blk t).view.set ↔ ∀ a : Fin 2, win0_2.index t a * S4096x8.size a ≤ (i a).val
      ∧ (i a).val < win0_2.index t a * S4096x8.size a + S4096x8.size a := by
  show i ∈ ((View.whole main_v0).slice (win0_2.rect t)).set ↔ _
  rw [View.set_slice_whole, Rect.mem_set_unit]
  exact Iff.rfl

/-- The eight blocks tile the array: row r is in the block of point r / 4096, and every point writes back. -/
theorem covered (i : S32768x8.Idx) :
    ∃ t : Fin cfg0.N, (cfg0.win 2).flush t = true ∧ i ∈ ((cfg0.win 2).blk t).view.set := by
  have hi0 : (i 0).val < 32768 := (i 0).isLt
  have hi1 : (i 1).val < 8 := (i 1).isLt
  have ht : (i 0).val / 4096 < 8 := by omega
  refine ⟨⟨(i 0).val / 4096, ht⟩, flush0_2 _, ?_⟩
  obtain ⟨-, -, -, -, e4, e5⟩ := block_indices ⟨(i 0).val / 4096, ht⟩
  have e4' : win0_2.index ⟨(i 0).val / 4096, ht⟩ (0 : Fin 2) = (i 0).val / 4096 := e4
  rw [mem_block]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    omega
  | ⟨1, _⟩ =>
    show win0_2.index ⟨(i 0).val / 4096, ht⟩ (1 : Fin 2) * 8 ≤ (i 1).val
      ∧ (i 1).val < win0_2.index ⟨(i 0).val / 4096, ht⟩ (1 : Fin 2) * 8 + 8
    omega

/-- The result array after the run is the logits of the two arguments. -/
theorem final (c : Dev nD) :
    (dats m 0 c).arrAt 2 cfg0.N
      = Cert.Router.logits (m ((c : Thread nD τ).loc main_arg0)) (m ((c : Thread nD τ).loc main_arg1)) :=
  (dats m 0 c).arrAt_eq_of_cover 2 (Cert.Router.logits (V m c main_arg0) (V m c main_arg1))
    (fun t _ => flushed_eq m c t) covered

/-- Every weakly fair execution of the idealized kernel terminates with the result array at the logits of
    the arguments and the arguments unchanged. -/
theorem run : θ_run defs (onTc (τ := τ) (main (F := Ideal))) ⟨m, fun _ => 0, ρ⟩ fun r => ∀ c : Dev nD,
      r.2.mem ((c : Thread nD τ).loc main_v0)
        = Cert.Router.logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.lean ====
/-
  The certificate of an expert router's logits, logits = x · Wᵀ with x : f32[32768, 768] (tokens by
  features) and W : f32[8, 768] (experts by features).

  The kernel walks the 32768 tokens in eight blocks of 4096 rows. At each grid point it loads the block
  of x and all of W, narrows both to bf16, and multiplies them on the matrix unit into a zero f32
  accumulator, contracting the feature axis of both operands; the 4096 × 8 product is written back as
  that point's rows of the result. The reference transposes W, takes the host's product of x with the
  transpose, and divides by the temperature 1.0.

  At the ideal instance floats are extended reals, a change of float format is the identity, and both
  the matrix unit's product into zero and the host's product are the plain sum over the contracted
  axis. So each side's entry (r, e) is Σ_{k < 768} x(r, k) · W(e, k) — the same products in the same
  sum — and the reference's quotient by 1.0 (the word 0x3F800000, the real 1) is the identity on every
  extended real. No distributive or cancellation law is used, so the inputs' finiteness is never opened.

  The parts. Proof/Logits.lean: the logits as one function of the two arrays, and x / 1.0 = x.
  Proof/RefLogits.lean: the reference's five operations, read at an index, compose to the logits.
  Proof/BlockProduct.lean: one grid point's product read at an entry (p, q). Proof/WholeArray.lean:
  point t writes back block t of the logits, the eight blocks tile the array, so the kernel's result
  array ends at the logits. The three frames are the generated frame runs (the reference's is its
  generated run with the value dropped); the idealization rewrote no operation, so its ledger is empty.
-/
import proofs.«178274_g86380382257743_cont_sun_m_742_17_alg».proof.Defs
import proofs.«178274_g86380382257743_cont_sun_m_742_17_alg».proof.Proof.Gen.Kernel
import proofs.«178274_g86380382257743_cont_sun_m_742_17_alg».proof.Proof.Gen.Kernel.Skeleton
import proofs.«178274_g86380382257743_cont_sun_m_742_17_alg».proof.Proof.Gen.Kernel.Launch
import proofs.«178274_g86380382257743_cont_sun_m_742_17_alg».proof.Proof.Gen.Kernel.Points
import proofs.«178274_g86380382257743_cont_sun_m_742_17_alg».proof.Proof.Gen.Kernel.Frame
import proofs.«178274_g86380382257743_cont_sun_m_742_17_alg».proof.Proof.Gen.KernelIdeal
import proofs.«178274_g86380382257743_cont_sun_m_742_17_alg».proof.Proof.Gen.KernelIdeal.Skeleton
import proofs.«178274_g86380382257743_cont_sun_m_742_17_alg».proof.Proof.Gen.KernelIdeal.Launch
import proofs.«178274_g86380382257743_cont_sun_m_742_17_alg».proof.Proof.Gen.KernelIdeal.Points
import proofs.«178274_g86380382257743_cont_sun_m_742_17_alg».proof.Proof.Gen.KernelIdeal.Frame
import proofs.«178274_g86380382257743_cont_sun_m_742_17_alg».proof.Proof.Gen.ReferenceIdeal
import proofs.«178274_g86380382257743_cont_sun_m_742_17_alg».proof.Proof.Gen.Pre_finite_inputs
import proofs.«178274_g86380382257743_cont_sun_m_742_17_alg».proof.Proof.Gen.KernelIdeal.Value
import proofs.«178274_g86380382257743_cont_sun_m_742_17_alg».proof.Proof.Gen.ReferenceIdeal.Run
import proofs.«178274_g86380382257743_cont_sun_m_742_17_alg».proof.Proof.Gen.ReferenceIdeal.Read
import proofs.«178274_g86380382257743_cont_sun_m_742_17_alg».proof.Proof.Logits
import proofs.«178274_g86380382257743_cont_sun_m_742_17_alg».proof.Proof.RefLogits
import proofs.«178274_g86380382257743_cont_sun_m_742_17_alg».proof.Proof.BlockProduct
import proofs.«178274_g86380382257743_cont_sun_m_742_17_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame run. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its generated run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result array at the logits of the arguments: the kernel's by
    WholeArray.run, the reference's by its generated run read as its last stage (RefLogits), at
    arguments that agree. -/
theorem algebraic : Cert.algebraic_KernelIdeal_ReferenceIdeal := by
  intro m ρ m' ρ' _ hagree
  refine ⟨fun c => Cert.Router.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq_logits, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
